-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S16x192 : Shape := ⟨2, ![16, 192]⟩
abbrev S16 : Shape := ⟨1, ![16]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel
  bcast_S_S16x192 : S_.BroadcastsInDim S16x192 (![] : Fin 0 → Fin S16x192.rank)
  reducesTo_S16x192_S_d0_1 : S16x192.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S64x3x512x512 .f32) (main_arg1 : FVec F S16x192 .f32) (main_arg2 : FVec F S16 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  let main_v4 : FVec F S16x192 .f32 := Host.absf main_arg1
  let main_cst_0 : FVec F S_ .f32 := constant S_ .f32 0x7F800000#32
  let main_v5 : FVec F S16x192 .f32 := broadcastInDim S16x192 ![] bcast_S_S16x192 main_cst_0
  let main_v6 : IVec S16x192 1 := cmpf .olt main_v4 main_v5
  let main_c_1 : IVec S_ 1 := constantI S_ 1 1#1
  let main_v7 : IVec S_ 1 := (fun x v => Host.reduce IntOp.andi x v reducesTo_S16x192_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S64x3x512x512 : Shape := ⟨4, ![64, 3, 512, 512]⟩
abbrev S16x192 : Shape := ⟨2, ![16, 192]⟩
abbrev S16 : Shape := ⟨1, ![16]⟩
abbrev S64x4096x16 : Shape := ⟨3, ![64, 4096, 16]⟩
abbrev S1x3x512x512 : Shape := ⟨4, ![1, 3, 512, 512]⟩
abbrev S1x4096x16 : Shape := ⟨3, ![1, 4096, 16]⟩
abbrev S3x512x512 : Shape := ⟨3, ![3, 512, 512]⟩
abbrev S3x64x8x64x8 : Shape := ⟨5, ![3, 64, 8, 64, 8]⟩
abbrev S16x3x8x8 : Shape := ⟨4, ![16, 3, 8, 8]⟩
abbrev S16x4096 : Shape := ⟨2, ![16, 4096]⟩
abbrev S3x64x1x64x1 : Shape := ⟨5, ![3, 64, 1, 64, 1]⟩
abbrev S3x64x64 : Shape := ⟨3, ![3, 64, 64]⟩
abbrev S3x4096 : Shape := ⟨2, ![3, 4096]⟩
abbrev S16x3x1x1 : Shape := ⟨4, ![16, 3, 1, 1]⟩
abbrev S16x3 : Shape := ⟨2, ![16, 3]⟩
abbrev S4096x16 : Shape := ⟨2, ![4096, 16]⟩
abbrev S1x16 : Shape := ⟨2, ![1, 16]⟩

abbrev nBuf : Space → Nat
  | .hbm => 4
  | .vmem => 6
  | .smem => 0
  | _ => 0

abbrev bufTy : (tb : Table) → Fin (tcTables nBuf tb) → BufTy
  | .hbm, ⟨0, _⟩ => ⟨S64x3x512x512, .f32⟩
  | .hbm, ⟨1, _⟩ => ⟨S16x192, .f32⟩
  | .hbm, ⟨2, _⟩ => ⟨S16, .f32⟩
  | .hbm, ⟨3, _⟩ => ⟨S64x4096x16, .f32⟩
  | .local _ .vmem, ⟨0, _⟩ => ⟨S1x3x512x512, .f32⟩
  | .local _ .vmem, ⟨1, _⟩ => ⟨S1x3x512x512, .f32⟩
  | .local _ .vmem, ⟨2, _⟩ => ⟨S16x192, .f32⟩
  | .local _ .vmem, ⟨3, _⟩ => ⟨S16, .f32⟩
  | .local _ .vmem, ⟨4, _⟩ => ⟨S1x4096x16, .f32⟩
  | .local _ .vmem, ⟨5, _⟩ => ⟨S1x4096x16, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4096x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S1x3x512x512_S3x512x512 : S1x3x512x512.ShapeCasts S3x512x512
  shapeCasts_S3x512x512_S3x64x8x64x8 : S3x512x512.ShapeCasts S3x64x8x64x8
  inb_S16x192_S16x192_0_0 : ∀ a, (![0, 0] : Fin 2 → Nat) a + S16x192.size a ≤ S16x192.size a
  h_S16x192 : 0 < S16x192.numel
  shapeCasts_S16x192_S16x3x8x8 : S16x192.ShapeCasts S16x3x8x8
  inb_S16_S16_0 : ∀ a, (![0] : Fin 1 → Nat) a + S16.size a ≤ S16.size a
  h_S16 : 0 < S16.numel
  slices_S3x64x8x64x8_o0_0_0_0_0_S3x64x1x64x1 : S3x64x8x64x8.Slices ![0, 0, 0, 0, 0] S3x64x1x64x1
  shapeCasts_S3x64x1x64x1_S3x64x64 : S3x64x1x64x1.ShapeCasts S3x64x64
  shapeCasts_S3x64x64_S3x4096 : S3x64x64.ShapeCasts S3x4096
  slices_S16x3x8x8_o0_0_0_0_S16x3x1x1 : S16x3x8x8.Slices ![0, 0, 0, 0] S16x3x1x1
  shapeCasts_S16x3x1x1_S16x3 : S16x3x1x1.ShapeCasts S16x3
  slices_S3x64x8x64x8_o0_0_0_0_1_S3x64x1x64x1 : S3x64x8x64x8.Slices ![0, 0, 0, 0, 1] S3x64x1x64x1
  slices_S16x3x8x8_o0_0_0_1_S16x3x1x1 : S16x3x8x8.Slices ![0, 0, 0, 1] S16x3x1x1
  slices_S3x64x8x64x8_o0_0_0_0_2_S3x64x1x64x1 : S3x64x8x64x8.Slices ![0, 0, 0, 0, 2] S3x64x1x64x1
  slices_S16x3x8x8_o0_0_0_2_S16x3x1x1 : S16x3x8x8.Slices ![0, 0, 0, 2] S16x3x1x1
  slices_S3x64x8x64x8_o0_0_0_0_3_S3x64x1x64x1 : S3x64x8x64x8.Slices ![0, 0, 0, 0, 3] S3x64x1x64x1
  slices_S16x3x8x8_o0_0_0_3_S16x3x1x1 : S16x3x8x8.Slices ![0, 0, 0, 3] S16x3x1x1
  slices_S3x64x8x64x8_o0_0_0_0_4_S3x64x1x64x1 : S3x64x8x64x8.Slices ![0, 0, 0, 0, 4] S3x64x1x64x1
  slices_S16x3x8x8_o0_0_0_4_S16x3x1x1 : S16x3x8x8.Slices ![0, 0, 0, 4] S16x3x1x1
  slices_S3x64x8x64x8_o0_0_0_0_5_S3x64x1x64x1 : S3x64x8x64x8.Slices ![0, 0, 0, 0, 5] S3x64x1x64x1
  slices_S16x3x8x8_o0_0_0_5_S16x3x1x1 : S16x3x8x8.Slices ![0, 0, 0, 5] S16x3x1x1
  slices_S3x64x8x64x8_o0_0_0_0_6_S3x64x1x64x1 : S3x64x8x64x8.Slices ![0, 0, 0, 0, 6] S3x64x1x64x1
  slices_S16x3x8x8_o0_0_0_6_S16x3x1x1 : S16x3x8x8.Slices ![0, 0, 0, 6] S16x3x1x1
  slices_S3x64x8x64x8_o0_0_0_0_7_S3x64x1x64x1 : S3x64x8x64x8.Slices ![0, 0, 0, 0, 7] S3x64x1x64x1
  slices_S16x3x8x8_o0_0_0_7_S16x3x1x1 : S16x3x8x8.Slices ![0, 0, 0, 7] S16x3x1x1
  slices_S3x64x8x64x8_o0_0_1_0_0_S3x64x1x64x1 : S3x64x8x64x8.Slices ![0, 0, 1, 0, 0] S3x64x1x64x1
  slices_S16x3x8x8_o0_0_1_0_S16x3x1x1 : S16x3x8x8.Slices ![0, 0, 1, 0] S16x3x1x1
  slices_S3x64x8x64x8_o0_0_1_0_1_S3x64x1x64x1 : S3x64x8x64x8.Slices ![0, 0, 1, 0, 1] S3x64x1x64x1
  slices_S16x3x8x8_o0_0_1_1_S16x3x1x1 : S16x3x8x8.Slices ![0, 0, 1, 1] S16x3x1x1
  slices_S3x64x8x64x8_o0_0_1_0_2_S3x64x1x64x1 : S3x64x8x64x8.Slices ![0, 0, 1, 0, 2] S3x64x1x64x1
  slices_S16x3x8x8_o0_0_1_2_S16x3x1x1 : S16x3x8x8.Slices ![0, 0, 1, 2] S16x3x1x1
  slices_S3x64x8x64x8_o0_0_1_0_3_S3x64x1x64x1 : S3x64x8x64x8.Slices ![0, 0, 1, 0, 3] S3x64x1x64x1
  slices_S16x3x8x8_o0_0_1_3_S16x3x1x1 : S16x3x8x8.Slices ![0, 0, 1, 3] S16x3x1x1
  slices_S3x64x8x64x8_o0_0_1_0_4_S3x64x1x64x1 : S3x64x8x64x8.Slices ![0, 0, 1, 0, 4] S3x64x1x64x1
  slices_S16x3x8x8_o0_0_1_4_S16x3x1x1 : S16x3x8x8.Slices ![0, 0, 1, 4] S16x3x1x1
  slices_S3x64x8x64x8_o0_0_1_0_5_S3x64x1x64x1 : S3x64x8x64x8.Slices ![0, 0, 1, 0, 5] S3x64x1x64x1
  slices_S16x3x8x8_o0_0_1_5_S16x3x1x1 : S16x3x8x8.Slices ![0, 0, 1, 5] S16x3x1x1
  slices_S3x64x8x64x8_o0_0_1_0_6_S3x64x1x64x1 : S3x64x8x64x8.Slices ![0, 0, 1, 0, 6] S3x64x1x64x1
  slices_S16x3x8x8_o0_0_1_6_S16x3x1x1 : S16x3x8x8.Slices ![0, 0, 1, 6] S16x3x1x1
  slices_S3x64x8x64x8_o0_0_1_0_7_S3x64x1x64x1 : S3x64x8x64x8.Slices ![0, 0, 1, 0, 7] S3x64x1x64x1
  slices_S16x3x8x8_o0_0_1_7_S16x3x1x1 : S16x3x8x8.Slices ![0, 0, 1, 7] S16x3x1x1
  slices_S3x64x8x64x8_o0_0_2_0_0_S3x64x1x64x1 : S3x64x8x64x8.Slices ![0, 0, 2, 0, 0] S3x64x1x64x1
  slices_S16x3x8x8_o0_0_2_0_S16x3x1x1 : S16x3x8x8.Slices ![0, 0, 2, 0] S16x3x1x1
  slices_S3x64x8x64x8_o0_0_2_0_1_S3x64x1x64x1 : S3x64x8x64x8.Slices ![0, 0, 2, 0, 1] S3x64x1x64x1
  slices_S16x3x8x8_o0_0_2_1_S16x3x1x1 : S16x3x8x8.Slices ![0, 0, 2, 1] S16x3x1x1
  slices_S3x64x8x64x8_o0_0_2_0_2_S3x64x1x64x1 : S3x64x8x64x8.Slices ![0, 0, 2, 0, 2] S3x64x1x64x1
  slices_S16x3x8x8_o0_0_2_2_S16x3x1x1 : S16x3x8x8.Slices ![0, 0, 2, 2] S16x3x1x1
  slices_S3x64x8x64x8_o0_0_2_0_3_S3x64x1x64x1 : S3x64x8x64x8.Slices ![0, 0, 2, 0, 3] S3x64x1x64x1
  slices_S16x3x8x8_o0_0_2_3_S16x3x1x1 : S16x3x8x8.Slices ![0, 0, 2, 3] S16x3x1x1
  slices_S3x64x8x64x8_o0_0_2_0_4_S3x64x1x64x1 : S3x64x8x64x8.Slices ![0, 0, 2, 0, 4] S3x64x1x64x1
  slices_S16x3x8x8_o0_0_2_4_S16x3x1x1 : S16x3x8x8.Slices ![0, 0, 2, 4] S16x3x1x1
  slices_S3x64x8x64x8_o0_0_2_0_5_S3x64x1x64x1 : S3x64x8x64x8.Slices ![0, 0, 2, 0, 5] S3x64x1x64x1
  slices_S16x3x8x8_o0_0_2_5_S16x3x1x1 : S16x3x8x8.Slices ![0, 0, 2, 5] S16x3x1x1
  slices_S3x64x8x64x8_o0_0_2_0_6_S3x64x1x64x1 : S3x64x8x64x8.Slices ![0, 0, 2, 0, 6] S3x64x1x64x1
  slices_S16x3x8x8_o0_0_2_6_S16x3x1x1 : S16x3x8x8.Slices ![0, 0, 2, 6] S16x3x1x1
  slices_S3x64x8x64x8_o0_0_2_0_7_S3x64x1x64x1 : S3x64x8x64x8.Slices ![0, 0, 2, 0, 7] S3x64x1x64x1
  slices_S16x3x8x8_o0_0_2_7_S16x3x1x1 : S16x3x8x8.Slices ![0, 0, 2, 7] S16x3x1x1
  slices_S3x64x8x64x8_o0_0_3_0_0_S3x64x1x64x1 : S3x64x8x64x8.Slices ![0, 0, 3, 0, 0] S3x64x1x64x1
  slices_S16x3x8x8_o0_0_3_0_S16x3x1x1 : S16x3x8x8.Slices ![0, 0, 3, 0] S16x3x1x1
  slices_S3x64x8x64x8_o0_0_3_0_1_S3x64x1x64x1 : S3x64x8x64x8.Slices ![0, 0, 3, 0, 1] S3x64x1x64x1
  slices_S16x3x8x8_o0_0_3_1_S16x3x1x1 : S16x3x8x8.Slices ![0, 0, 3, 1] S16x3x1x1
  slices_S3x64x8x64x8_o0_0_3_0_2_S3x64x1x64x1 : S3x64x8x64x8.Slices ![0, 0, 3, 0, 2] S3x64x1x64x1
  slices_S16x3x8x8_o0_0_3_2_S16x3x1x1 : S16x3x8x8.Slices ![0, 0, 3, 2] S16x3x1x1
  slices_S3x64x8x64x8_o0_0_3_0_3_S3x64x1x64x1 : S3x64x8x64x8.Slices ![0, 0, 3, 0, 3] S3x64x1x64x1
  slices_S16x3x8x8_o0_0_3_3_S16x3x1x1 : S16x3x8x8.Slices ![0, 0, 3, 3] S16x3x1x1
  slices_S3x64x8x64x8_o0_0_3_0_4_S3x64x1x64x1 : S3x64x8x64x8.Slices ![0, 0, 3, 0, 4] S3x64x1x64x1
  slices_S16x3x8x8_o0_0_3_4_S16x3x1x1 : S16x3x8x8.Slices ![0, 0, 3, 4] S16x3x1x1
  slices_S3x64x8x64x8_o0_0_3_0_5_S3x64x1x64x1 : S3x64x8x64x8.Slices ![0, 0, 3, 0, 5] S3x64x1x64x1
  slices_S16x3x8x8_o0_0_3_5_S16x3x1x1 : S16x3x8x8.Slices ![0, 0, 3, 5] S16x3x1x1
  slices_S3x64x8x64x8_o0_0_3_0_6_S3x64x1x64x1 : S3x64x8x64x8.Slices ![0, 0, 3, 0, 6] S3x64x1x64x1
  slices_S16x3x8x8_o0_0_3_6_S16x3x1x1 : S16x3x8x8.Slices ![0, 0, 3, 6] S16x3x1x1
  slices_S3x64x8x64x8_o0_0_3_0_7_S3x64x1x64x1 : S3x64x8x64x8.Slices ![0, 0, 3, 0, 7] S3x64x1x64x1
  slices_S16x3x8x8_o0_0_3_7_S16x3x1x1 : S16x3x8x8.Slices ![0, 0, 3, 7] S16x3x1x1
  slices_S3x64x8x64x8_o0_0_4_0_0_S3x64x1x64x1 : S3x64x8x64x8.Slices ![0, 0, 4, 0, 0] S3x64x1x64x1
  slices_S16x3x8x8_o0_0_4_0_S16x3x1x1 : S16x3x8x8.Slices ![0, 0, 4, 0] S16x3x1x1
  slices_S3x64x8x64x8_o0_0_4_0_1_S3x64x1x64x1 : S3x64x8x64x8.Slices ![0, 0, 4, 0, 1] S3x64x1x64x1
  slices_S16x3x8x8_o0_0_4_1_S16x3x1x1 : S16x3x8x8.Slices ![0, 0, 4, 1] S16x3x1x1
  slices_S3x64x8x64x8_o0_0_4_0_2_S3x64x1x64x1 : S3x64x8x64x8.Slices ![0, 0, 4, 0, 2] S3x64x1x64x1
  slices_S16x3x8x8_o0_0_4_2_S16x3x1x1 : S16x3x8x8.Slices ![0, 0, 4, 2] S16x3x1x1
  slices_S3x64x8x64x8_o0_0_4_0_3_S3x64x1x64x1 : S3x64x8x64x8.Slices ![0, 0, 4, 0, 3] S3x64x1x64x1
  slices_S16x3x8x8_o0_0_4_3_S16x3x1x1 : S16x3x8x8.Slices ![0, 0, 4, 3] S16x3x1x1
  slices_S3x64x8x64x8_o0_0_4_0_4_S3x64x1x64x1 : S3x64x8x64x8.Slices ![0, 0, 4, 0, 4] S3x64x1x64x1
  slices_S16x3x8x8_o0_0_4_4_S16x3x1x1 : S16x3x8x8.Slices ![0, 0, 4, 4] S16x3x1x1
  slices_S3x64x8x64x8_o0_0_4_0_5_S3x64x1x64x1 : S3x64x8x64x8.Slices ![0, 0, 4, 0, 5] S3x64x1x64x1
  slices_S16x3x8x8_o0_0_4_5_S16x3x1x1 : S16x3x8x8.Slices ![0, 0, 4, 5] S16x3x1x1
  slices_S3x64x8x64x8_o0_0_4_0_6_S3x64x1x64x1 : S3x64x8x64x8.Slices ![0, 0, 4, 0, 6] S3x64x1x64x1
  slices_S16x3x8x8_o0_0_4_6_S16x3x1x1 : S16x3x8x8.Slices ![0, 0, 4, 6] S16x3x1x1
  slices_S3x64x8x64x8_o0_0_4_0_7_S3x64x1x64x1 : S3x64x8x64x8.Slices ![0, 0, 4, 0, 7] S3x64x1x64x1
  slices_S16x3x8x8_o0_0_4_7_S16x3x1x1 : S16x3x8x8.Slices ![0, 0, 4, 7] S16x3x1x1
  slices_S3x64x8x64x8_o0_0_5_0_0_S3x64x1x64x1 : S3x64x8x64x8.Slices ![0, 0, 5, 0, 0] S3x64x1x64x1
  slices_S16x3x8x8_o0_0_5_0_S16x3x1x1 : S16x3x8x8.Slices ![0, 0, 5, 0] S16x3x1x1
  slices_S3x64x8x64x8_o0_0_5_0_1_S3x64x1x64x1 : S3x64x8x64x8.Slices ![0, 0, 5, 0, 1] S3x64x1x64x1
  slices_S16x3x8x8_o0_0_5_1_S16x3x1x1 : S16x3x8x8.Slices ![0, 0, 5, 1] S16x3x1x1
  slices_S3x64x8x64x8_o0_0_5_0_2_S3x64x1x64x1 : S3x64x8x64x8.Slices ![0, 0, 5, 0, 2] S3x64x1x64x1
  slices_S16x3x8x8_o0_0_5_2_S16x3x1x1 : S16x3x8x8.Slices ![0, 0, 5, 2] S16x3x1x1
  slices_S3x64x8x64x8_o0_0_5_0_3_S3x64x1x64x1 : S3x64x8x64x8.Slices ![0, 0, 5, 0, 3] S3x64x1x64x1
  slices_S16x3x8x8_o0_0_5_3_S16x3x1x1 : S16x3x8x8.Slices ![0, 0, 5, 3] S16x3x1x1
  slices_S3x64x8x64x8_o0_0_5_0_4_S3x64x1x64x1 : S3x64x8x64x8.Slices ![0, 0, 5, 0, 4] S3x64x1x64x1
  slices_S16x3x8x8_o0_0_5_4_S16x3x1x1 : S16x3x8x8.Slices ![0, 0, 5, 4] S16x3x1x1
  slices_S3x64x8x64x8_o0_0_5_0_5_S3x64x1x64x1 : S3x64x8x64x8.Slices ![0, 0, 5, 0, 5] S3x64x1x64x1
  slices_S16x3x8x8_o0_0_5_5_S16x3x1x1 : S16x3x8x8.Slices ![0, 0, 5, 5] S16x3x1x1
  slices_S3x64x8x64x8_o0_0_5_0_6_S3x64x1x64x1 : S3x64x8x64x8.Slices ![0, 0, 5, 0, 6] S3x64x1x64x1
  slices_S16x3x8x8_o0_0_5_6_S16x3x1x1 : S16x3x8x8.Slices ![0, 0, 5, 6] S16x3x1x1
  slices_S3x64x8x64x8_o0_0_5_0_7_S3x64x1x64x1 : S3x64x8x64x8.Slices ![0, 0, 5, 0, 7] S3x64x1x64x1
  slices_S16x3x8x8_o0_0_5_7_S16x3x1x1 : S16x3x8x8.Slices ![0, 0, 5, 7] S16x3x1x1
  slices_S3x64x8x64x8_o0_0_6_0_0_S3x64x1x64x1 : S3x64x8x64x8.Slices ![0, 0, 6, 0, 0] S3x64x1x64x1
  slices_S16x3x8x8_o0_0_6_0_S16x3x1x1 : S16x3x8x8.Slices ![0, 0, 6, 0] S16x3x1x1
  slices_S3x64x8x64x8_o0_0_6_0_1_S3x64x1x64x1 : S3x64x8x64x8.Slices ![0, 0, 6, 0, 1] S3x64x1x64x1
  slices_S16x3x8x8_o0_0_6_1_S16x3x1x1 : S16x3x8x8.Slices ![0, 0, 6, 1] S16x3x1x1
  slices_S3x64x8x64x8_o0_0_6_0_2_S3x64x1x64x1 : S3x64x8x64x8.Slices ![0, 0, 6, 0, 2] S3x64x1x64x1
  slices_S16x3x8x8_o0_0_6_2_S16x3x1x1 : S16x3x8x8.Slices ![0, 0, 6, 2] S16x3x1x1
  slices_S3x64x8x64x8_o0_0_6_0_3_S3x64x1x64x1 : S3x64x8x64x8.Slices ![0, 0, 6, 0, 3] S3x64x1x64x1
  slices_S16x3x8x8_o0_0_6_3_S16x3x1x1 : S16x3x8x8.Slices ![0, 0, 6, 3] S16x3x1x1
  slices_S3x64x8x64x8_o0_0_6_0_4_S3x64x1x64x1 : S3x64x8x64x8.Slices ![0, 0, 6, 0, 4] S3x64x1x64x1
  slices_S16x3x8x8_o0_0_6_4_S16x3x1x1 : S16x3x8x8.Slices ![0, 0, 6, 4] S16x3x1x1
  slices_S3x64x8x64x8_o0_0_6_0_5_S3x64x1x64x1 : S3x64x8x64x8.Slices ![0, 0, 6, 0, 5] S3x64x1x64x1
  slices_S16x3x8x8_o0_0_6_5_S16x3x1x1 : S16x3x8x8.Slices ![0, 0, 6, 5] S16x3x1x1
  slices_S3x64x8x64x8_o0_0_6_0_6_S3x64x1x64x1 : S3x64x8x64x8.Slices ![0, 0, 6, 0, 6] S3x64x1x64x1
  slices_S16x3x8x8_o0_0_6_6_S16x3x1x1 : S16x3x8x8.Slices ![0, 0, 6, 6] S16x3x1x1
  slices_S3x64x8x64x8_o0_0_6_0_7_S3x64x1x64x1 : S3x64x8x64x8.Slices ![0, 0, 6, 0, 7] S3x64x1x64x1
  slices_S16x3x8x8_o0_0_6_7_S16x3x1x1 : S16x3x8x8.Slices ![0, 0, 6, 7] S16x3x1x1
  slices_S3x64x8x64x8_o0_0_7_0_0_S3x64x1x64x1 : S3x64x8x64x8.Slices ![0, 0, 7, 0, 0] S3x64x1x64x1
  slices_S16x3x8x8_o0_0_7_0_S16x3x1x1 : S16x3x8x8.Slices ![0, 0, 7, 0] S16x3x1x1
  slices_S3x64x8x64x8_o0_0_7_0_1_S3x64x1x64x1 : S3x64x8x64x8.Slices ![0, 0, 7, 0, 1] S3x64x1x64x1
  slices_S16x3x8x8_o0_0_7_1_S16x3x1x1 : S16x3x8x8.Slices ![0, 0, 7, 1] S16x3x1x1
  slices_S3x64x8x64x8_o0_0_7_0_2_S3x64x1x64x1 : S3x64x8x64x8.Slices ![0, 0, 7, 0, 2] S3x64x1x64x1
  slices_S16x3x8x8_o0_0_7_2_S16x3x1x1 : S16x3x8x8.Slices ![0, 0, 7, 2] S16x3x1x1
  slices_S3x64x8x64x8_o0_0_7_0_3_S3x64x1x64x1 : S3x64x8x64x8.Slices ![0, 0, 7, 0, 3] S3x64x1x64x1
  slices_S16x3x8x8_o0_0_7_3_S16x3x1x1 : S16x3x8x8.Slices ![0, 0, 7, 3] S16x3x1x1
  slices_S3x64x8x64x8_o0_0_7_0_4_S3x64x1x64x1 : S3x64x8x64x8.Slices ![0, 0, 7, 0, 4] S3x64x1x64x1
  slices_S16x3x8x8_o0_0_7_4_S16x3x1x1 : S16x3x8x8.Slices ![0, 0, 7, 4] S16x3x1x1
  slices_S3x64x8x64x8_o0_0_7_0_5_S3x64x1x64x1 : S3x64x8x64x8.Slices ![0, 0, 7, 0, 5] S3x64x1x64x1
  slices_S16x3x8x8_o0_0_7_5_S16x3x1x1 : S16x3x8x8.Slices ![0, 0, 7, 5] S16x3x1x1
  slices_S3x64x8x64x8_o0_0_7_0_6_S3x64x1x64x1 : S3x64x8x64x8.Slices ![0, 0, 7, 0, 6] S3x64x1x64x1
  slices_S16x3x8x8_o0_0_7_6_S16x3x1x1 : S16x3x8x8.Slices ![0, 0, 7, 6] S16x3x1x1
  slices_S3x64x8x64x8_o0_0_7_0_7_S3x64x1x64x1 : S3x64x8x64x8.Slices ![0, 0, 7, 0, 7] S3x64x1x64x1
  slices_S16x3x8x8_o0_0_7_7_S16x3x1x1 : S16x3x8x8.Slices ![0, 0, 7, 7] S16x3x1x1
  transposes_S16x4096_p1_0_S4096x16 : S16x4096.Transposes [1, 0] S4096x16
  shapeCasts_S16_S1x16 : S16.ShapeCasts S1x16
  broadcasts_S1x16_S4096x16 : S1x16.Broadcasts S4096x16
  inb_S1x4096x16_S1x4096x16_0_0_0 : ∀ a, (![0, 0, 0] : Fin 3 → Nat) a + S1x4096x16.size a ≤ S1x4096x16.size a
  h_S1x4096x16 : 0 < S1x4096x16.numel
  shapeCasts_S1x4096x16_S4096x16 : S1x4096x16.ShapeCasts S4096x16
  shapeCasts_S4096x16_S1x4096x16 : S4096x16.ShapeCasts S1x4096x16
  dot_S16x3_S3x4096_S16x4096_1_0_0_1_n_n_wf : DotDims.WF S16x3 S3x4096 S16x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S64x3x512x512.size a
  hwx0_0 : ∀ i : grid0.Coords, EltTy.bits .f32 = 32 ∨ (Rect.block (s := S64x3x512x512) S1x3x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x192.size a ≤ S16x192.size a
  hwx0_1 : ∀ i : grid0.Coords, EltTy.bits .f32 = 32 ∨ (Rect.block (s := S16x192) S16x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x16.size a ≤ S64x4096x16.size a
  hwx0_3 : ∀ i : grid0.Coords, EltTy.bits .f32 = 32 ∨ (Rect.block (s := S64x4096x16) S1x4096x16.size (cc0_transform_3 i) (hinb0_3 i)).WholeWords (EltTy.packing .f32)

variable [Facts₀]

def dot_S16x3_S3x4096_S16x4096_1_0_0_1_n_n : DotDims S16x3 S3x4096 S16x4096 where
  lhsContracting := [1]
  rhsContracting := [0]
  lhsNonContracting := [0]
  rhsNonContracting := [1]
  lhsBatch := []
  rhsBatch := []
  wf := dot_S16x3_S3x4096_S16x4096_1_0_0_1_n_n_wf

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x4096x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x3x512x512 : Shape := ⟨4, ![64, 3, 512, 512]⟩
abbrev S16x192 : Shape := ⟨2, ![16, 192]⟩
abbrev S16 : Shape := ⟨1, ![16]⟩
abbrev S64x3x64x8x64x8 : Shape := ⟨6, ![64, 3, 64, 8, 64, 8]⟩
abbrev S64x64x64x3x8x8 : Shape := ⟨6, ![64, 64, 64, 3, 8, 8]⟩
abbrev S64x4096x192 : Shape := ⟨3, ![64, 4096, 192]⟩
abbrev S64x4096x16 : Shape := ⟨3, ![64, 4096, 16]⟩
abbrev S1x1x16 : Shape := ⟨3, ![1, 1, 16]⟩

abbrev nBuf : Space → Nat
  | .hbm => 10
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S16x192, .f32⟩
  | .hbm, ⟨2, _⟩ => ⟨S16, .f32⟩
  | .hbm, ⟨3, _⟩ => ⟨S64x3x64x8x64x8, .f32⟩
  | .hbm, ⟨4, _⟩ => ⟨S64x64x64x3x8x8, .f32⟩
  | .hbm, ⟨5, _⟩ => ⟨S64x4096x192, .f32⟩
  | .hbm, ⟨6, _⟩ => ⟨S64x4096x16, .f32⟩
  | .hbm, ⟨7, _⟩ => ⟨S1x1x16, .f32⟩
  | .hbm, ⟨8, _⟩ => ⟨S64x4096x16, .f32⟩
  | .hbm, ⟨9, _⟩ => ⟨S64x4096x16, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S64x3x512x512_S64x3x64x8x64x8 : S64x3x512x512.ShapeCasts S64x3x64x8x64x8
  transposes_S64x3x64x8x64x8_S64x64x64x3x8x8_0_2_4_1_3_5 : S64x3x64x8x64x8.Transposes [0, 2, 4, 1, 3, 5] S64x64x64x3x8x8
  shapeCasts_S64x64x64x3x8x8_S64x4096x192 : S64x64x64x3x8x8.ShapeCasts S64x4096x192
  bcast_S16_S1x1x16_2 : S16.BroadcastsInDim S1x1x16 (![2] : Fin 1 → Fin S1x1x16.rank)
  bcast_S1x1x16_S64x4096x16_0_1_2 : S1x1x16.BroadcastsInDim S64x4096x16 (![0, 1, 2] : Fin 3 → Fin S64x4096x16.rank)
  dot_S64x4096x192_S16x192_S64x4096x16_2_1_01_0_n_n_wf : DotDims.WF S64x4096x192 S16x192 S64x4096x16 [2] [1] [0, 1] [0] [] []

variable [Facts₀]

def dot_S64x4096x192_S16x192_S64x4096x16_2_1_01_0_n_n : DotDims S64x4096x192 S16x192 S64x4096x16 where
  lhsContracting := [2]
  rhsContracting := [1]
  lhsNonContracting := [0, 1]
  rhsNonContracting := [0]
  lhsBatch := []
  rhsBatch := []
  wf := dot_S64x4096x192_S16x192_S64x4096x16_2_1_01_0_n_n_wf

class Facts : Prop extends Facts₀ where

variable [Facts]
-- ==== Proof.PatchAlgebra.lean ====
/-
  The patch embedding as one function of the three argument arrays, and the two re-indexings of its sum.

  An image [3, 512, 512] is cut into 64 × 64 patches of 8 × 8 pixels. Patch p = hp · 64 + wp, feature
  d = c · 64 + ph · 8 + pw, and the pixel of patch p under feature d is image[c, hp · 8 + ph, wp · 8 + pw]. The embedding of
  patch p into output channel k is the sum over the 192 features of pixel times weight, plus the bias.
  The sum over the features is the sum over the offset (ph, pw) inside the patch of the sum over the channel c, and
  sixty-four steps counted i = 0 … 63 with (ph, pw) = (i / 8, i % 8) are the double sum over the offsets: both by a
  bijection of the index sets, in any commutative additive monoid.
-/
import Idealize.ShloMosaic.PureOps.Ideal
import Idealize.ShloMosaic.Lib.ValueIdx

noncomputable section

namespace Cert.PatchEmbed

open Idealize.ShloMosaic Idealize.ShloMosaic.ValueIdx

/-- The feature index of channel `c` at offset (ph, pw) inside the patch. -/
def feat (c : Fin 3) (ph pw : Fin 8) : Fin 192 :=
  ⟨c.val * 64 + ph.val * 8 + pw.val, by have := c.isLt; have := ph.isLt; have := pw.isLt; omega⟩

/-- Features are offsets-and-channel: d ↦ ((d / 8) % 8, d % 8, d / 64). -/
def featEquiv : Fin 8 × Fin 8 × Fin 3 ≃ Fin 192 where
  toFun q := feat q.2.2 q.1 q.2.1
  invFun d := (⟨d.val / 8 % 8, Nat.mod_lt _ (by decide)⟩, ⟨d.val % 8, Nat.mod_lt _ (by decide)⟩, ⟨d.val / 64, by have := d.isLt; omega⟩)
  left_inv q := by
    obtain ⟨ph, pw, c⟩ := q
    have := c.isLt; have := ph.isLt; have := pw.isLt
    refine Prod.ext (Fin.ext ?_) (Prod.ext (Fin.ext ?_) (Fin.ext ?_)) <;> simp only [feat] <;> omega
  right_inv d := by
    have := d.isLt
    apply Fin.ext; simp only [feat]; omega

/-- A sum over the 192 features, offset by offset and channel by channel. -/
theorem sum_features {M : Type*} [AddCommMonoid M] (g : Fin 192 → M) :
    ∑ d, g d = ∑ ph : Fin 8, ∑ pw : Fin 8, ∑ c : Fin 3, g (feat c ph pw) := by
  rw [← Equiv.sum_comp featEquiv g, Fintype.sum_prod_type]
  refine Finset.sum_congr rfl fun ph _ => ?_
  rw [Fintype.sum_prod_type]
  rfl

/-- Steps are offsets: i ↦ (i / 8, i % 8). -/
def stepEquiv : Fin 64 ≃ Fin 8 × Fin 8 where
  toFun i := (⟨i.val / 8, by have := i.isLt; omega⟩, ⟨i.val % 8, Nat.mod_lt _ (by decide)⟩)
  invFun q := ⟨q.1.val * 8 + q.2.val, by have := q.1.isLt; have := q.2.isLt; omega⟩
  left_inv i := by
    have := i.isLt
    apply Fin.ext; simp only; omega
  right_inv q := by
    obtain ⟨ph, pw⟩ := q
    have := ph.isLt; have := pw.isLt
    refine Prod.ext (Fin.ext ?_) (Fin.ext ?_) <;> simp only <;> omega

/-- Sixty-four steps counted by a natural number are the double sum over the offsets. -/
theorem sum_steps {M : Type*} [AddCommMonoid M] (f : ℕ → ℕ → M) :
    ∑ i ∈ Finset.range 64, f (i / 8) (i % 8) = ∑ ph : Fin 8, ∑ pw : Fin 8, f ph.val pw.val := by
  rw [Finset.sum_range (fun i => f (i / 8) (i % 8)), ← Equiv.sum_comp stepEquiv.symm, Fintype.sum_prod_type]
  rfl

/-- The pixel of image `n`, patch `p`, under feature `d`. -/
def pixel (n : Fin 64) (p : Fin 4096) (d : Fin 192) : (⟨4, ![64, 3, 512, 512]⟩ : Shape).Idx :=
  ix4 n (⟨d.val / 64, by have := d.isLt; omega⟩ : Fin 3)
    (⟨p.val / 64 * 8 + d.val / 8 % 8, by have := p.isLt; omega⟩ : Fin 512)
    (⟨p.val % 64 * 8 + d.val % 8, by omega⟩ : Fin 512)

/-- The patch embedding: for image n, patch p and output channel k, the sum over the features of pixel times weight,
    plus the bias. -/
def patchEmbed (img : (⟨4, ![64, 3, 512, 512]⟩ : Shape).Idx → EReal) (w : (⟨2, ![16, 192]⟩ : Shape).Idx → EReal)
    (b : (⟨1, ![16]⟩ : Shape).Idx → EReal) : (⟨3, ![64, 4096, 16]⟩ : Shape).Idx → EReal :=
  fun i => (∑ d : Fin 192, img (pixel (i 0) (i 1) d) * w (ix2 (i 2) d)) + b (ix1 (i 2))

end Cert.PatchEmbed

end
-- ==== Proof.RefValue.lean ====
/-
  The reference computes the patch embedding.

  The host program reshapes the images to [64, 3, 64, 8, 64, 8], moves the patch coordinates in front of channel and
  offsets, flattens to [64, 4096, 192], contracts the feature axis with the weights' and adds the broadcast bias. Read at
  an index (n, p, k), the two reshapes and the transposition pick, for feature d, the pixel
  image[n, d / 64, (p / 64) · 8 + (d / 8) % 8, (p % 64) · 8 + d % 8], so the result is the patch embedding.
-/
import proofs.«150936_j29076928594212_1_alg».proof.Proof.Gen.ReferenceIdeal.Read
import proofs.«150936_j29076928594212_1_alg».proof.Proof.PatchAlgebra
import Idealize.ShloMosaic.Lib.ValueIdxRank6

noncomputable section

namespace Cert.ReferenceIdeal.RefValue

open Cert.ReferenceIdeal Cert.ReferenceIdeal.Gen Cert.ReferenceIdeal.Read Idealize.ShloMosaic Idealize.ShloMosaic.ValueIdx
open Cert.PatchEmbed

/-- The flattened patches at (n, p, d) hold the pixel of image n, patch p, under feature d. -/
theorem patches_apply (x0 : (⟨S64x3x512x512, .f32⟩ : BufTy).Contents (Elt Ideal)) (i : S64x4096x16.Idx) (d : Fin 192) :
    val_main_v2 (F := Ideal) x0 (lidx_main_v3 i d) = x0 (pixel (i 0) (i 1) d) := by
  have hn : (i 0).val < 64 := (i 0).isLt
  have hp : (i 1).val < 4096 := (i 1).isLt
  have hd := d.isLt
  unfold val_main_v2
  refine (shapeCast_apply _ shapeCasts_S64x64x64x3x8x8_S64x4096x192 (lidx_main_v3 i d)
    (ix6 (i 0) (⟨(i 1).val / 64, by omega⟩ : Fin 64) (⟨(i 1).val % 64, Nat.mod_lt _ (by decide)⟩ : Fin 64)
      (⟨d.val / 64, by omega⟩ : Fin 3) (⟨d.val / 8 % 8, Nat.mod_lt _ (by decide)⟩ : Fin 8) (⟨d.val % 8, Nat.mod_lt _ (by decide)⟩ : Fin 8)) (by
    rw [Shape.rowMajor_val_six, Shape.rowMajor_val_three]
    show (((((i 0).val * 64 + (i 1).val / 64) * 64 + (i 1).val % 64) * 3 + d.val / 64) * 8 + d.val / 8 % 8) * 8 + d.val % 8
      = ((i 0).val * 4096 + (i 1).val) * 192 + d.val
    omega)).trans ?_
  rw [val_main_v1_apply]
  unfold val_main_v0
  refine shapeCast_apply _ shapeCasts_S64x3x512x512_S64x3x64x8x64x8 _ (pixel (i 0) (i 1) d) (by
    rw [Shape.rowMajor_val_four, Shape.rowMajor_val_six]
    show (((i 0).val * 3 + d.val / 64) * 512 + ((i 1).val / 64 * 8 + d.val / 8 % 8)) * 512 + ((i 1).val % 64 * 8 + d.val % 8)
      = (((((i 0).val * 3 + d.val / 64) * 64 + (i 1).val / 64) * 8 + d.val / 8 % 8) * 64 + (i 1).val % 64) * 8 + d.val % 8
    omega)

/-- The reference's result is the patch embedding of its three arguments. -/
theorem reference_eq (x0 : (⟨S64x3x512x512, .f32⟩ : BufTy).Contents (Elt Ideal)) (x1 : (⟨S16x192, .f32⟩ : BufTy).Contents (Elt Ideal))
    (x2 : (⟨S16, .f32⟩ : BufTy).Contents (Elt Ideal)) :
    val_main_v6 (F := Ideal) x0 x1 x2 = patchEmbed x0 x1 x2 := by
  funext i
  rw [val_main_v6_apply, val_main_v3_apply, val_main_v5_apply, val_main_v4_apply]
  show (∑ d : Fin 192, val_main_v2 (F := Ideal) x0 (lidx_main_v3 i d) * x1 (ridx_main_v3 i d)) + x2 (idx_main_v4 (idx_main_v5 i)) = _
  unfold patchEmbed
  congr 1
  · refine Finset.sum_congr rfl fun d _ => ?_
    rw [patches_apply]
    exact congrArg (fun j => x0 (pixel (i 0) (i 1) d) * x1 j) (funext fun a => match a with | ⟨0, _⟩ => rfl | ⟨1, _⟩ => rfl)
  · exact congrArg x2 (funext fun a => match a with | ⟨0, _⟩ => rfl)

end Cert.ReferenceIdeal.RefValue

end
-- ==== Proof.PatchTerm.lean ====
/-
  One step of the kernel's accumulation, read at an index.

  The kernel holds the image block as X[c, hp, ph, wp, pw] (the [3, 512, 512] block with each spatial axis split into
  patch index and offset inside the patch) and the weights as Wt[k, c, ph, pw]. For a fixed offset (ph, pw) inside the
  patch it slices X to [3, 64, 1, 64, 1], flattens that to [3, 4096], slices Wt to [16, 3, 1, 1], flattens to [16, 3], and
  multiplies the two into a zero accumulator. At output index (k, p) the product is the sum over the three channels c of
  Wt[k, c, ph, pw] · X[c, p / 64, ph, p % 64, pw]: a matrix product into zero is a plain sum at the ideal instance, and
  each slice and reshape reads one element of its operand.
-/
import proofs.«150936_j29076928594212_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PatchTerm

open Cert.KernelIdeal Cert.KernelIdeal.Gen Idealize.ShloMosaic Idealize.ShloMosaic.ValueIdx

/-! ## The channel product's operand indices -/

theorem lhs_axis0 (i : S16x4096.Idx) (q : dot_S16x3_S3x4096_S16x4096_1_0_0_1_n_n.contr.Idx) :
    (dot_S16x3_S3x4096_S16x4096_1_0_0_1_n_n.lhsIdx i q 0).val = (i 0).val := by
  unfold DotDims.lhsIdx
  rw [dif_neg (show ¬(0 : Fin S16x3.rank) ∈ dot_S16x3_S3x4096_S16x4096_1_0_0_1_n_n.lhsBatch by decide), dif_pos (show (0 : Fin S16x3.rank) ∈ dot_S16x3_S3x4096_S16x4096_1_0_0_1_n_n.lhsNonContracting by decide)]
  rfl
theorem lhs_axis1 (i : S16x4096.Idx) (q : dot_S16x3_S3x4096_S16x4096_1_0_0_1_n_n.contr.Idx) :
    (dot_S16x3_S3x4096_S16x4096_1_0_0_1_n_n.lhsIdx i q 1).val = (q ⟨0, by decide⟩).val :=
  dot_S16x3_S3x4096_S16x4096_1_0_0_1_n_n.lhsIdx_val_of_single rfl i q
theorem rhs_axis0 (i : S16x4096.Idx) (q : dot_S16x3_S3x4096_S16x4096_1_0_0_1_n_n.contr.Idx) :
    (dot_S16x3_S3x4096_S16x4096_1_0_0_1_n_n.rhsIdx i q 0).val = (q ⟨0, by decide⟩).val :=
  dot_S16x3_S3x4096_S16x4096_1_0_0_1_n_n.rhsIdx_val_of_single rfl i q
theorem rhs_axis1 (i : S16x4096.Idx) (q : dot_S16x3_S3x4096_S16x4096_1_0_0_1_n_n.contr.Idx) :
    (dot_S16x3_S3x4096_S16x4096_1_0_0_1_n_n.rhsIdx i q 1).val = (i 1).val := by
  unfold DotDims.rhsIdx
  rw [dif_neg (show ¬(1 : Fin S3x4096.rank) ∈ dot_S16x3_S3x4096_S16x4096_1_0_0_1_n_n.rhsBatch by decide), dif_pos (show (1 : Fin S3x4096.rank) ∈ dot_S16x3_S3x4096_S16x4096_1_0_0_1_n_n.rhsNonContracting by decide)]
  rfl

/-- A [16, 3] × [3, 4096] product into the zero accumulator, at (k, p), is the sum over the channel. -/
theorem channel_product_apply (A : FVec Ideal S16x3 .f32) (B : FVec Ideal S3x4096 .f32) (k : Fin 16) (p : Fin 4096) :
    matmul dot_S16x3_S3x4096_S16x4096_1_0_0_1_n_n none A B (constant S16x4096 .f32 0x00000000#32) (ix2 k p)
      = ∑ c : Fin 3, A (ix2 k c) * B (ix2 c p) := by
  show FloatOps.matmul _ _ A B (constant S16x4096 .f32 0x00000000#32) (ix2 k p) = _
  rw [Ideal.matmul_constant_zero_apply, ← Equiv.sum_comp (contrEquiv1 dot_S16x3_S3x4096_S16x4096_1_0_0_1_n_n 3 rfl rfl).symm]
  refine Finset.sum_congr rfl fun c _ => ?_
  have hc := contrEquiv1_symm_val dot_S16x3_S3x4096_S16x4096_1_0_0_1_n_n 3 rfl rfl c
  have el : dot_S16x3_S3x4096_S16x4096_1_0_0_1_n_n.lhsIdx (ix2 k p) ((contrEquiv1 dot_S16x3_S3x4096_S16x4096_1_0_0_1_n_n 3 rfl rfl).symm c) = ix2 k c := funext fun a => Fin.ext (by
    match a with
    | ⟨0, _⟩ => exact lhs_axis0 _ _
    | ⟨1, _⟩ => exact (lhs_axis1 _ _).trans hc)
  have er : dot_S16x3_S3x4096_S16x4096_1_0_0_1_n_n.rhsIdx (ix2 k p) ((contrEquiv1 dot_S16x3_S3x4096_S16x4096_1_0_0_1_n_n 3 rfl rfl).symm c) = ix2 c p := funext fun a => Fin.ext (by
    match a with
    | ⟨0, _⟩ => exact (rhs_axis0 _ _).trans hc
    | ⟨1, _⟩ => exact rhs_axis1 _ _)
  rw [el, er]

/-! ## The two sliced operands at an index -/

theorem weight_offsets_lt {ph pw : ℕ} (h : S16x3x8x8.Slices ![0, 0, ph, pw] S16x3x1x1) : ph < 8 ∧ pw < 8 := by
  have h2 : ph + 1 ≤ 8 := h.2 (2 : Fin 4)
  have h3 : pw + 1 ≤ 8 := h.2 (3 : Fin 4)
  omega

/-- The weight slice at offset (ph, pw), flattened to [16, 3], at (k, c) is Wt[k, c, ph, pw]. -/
theorem weight_slice_apply (Wt : FVec Ideal S16x3x8x8 .f32) (ph pw : ℕ) (hph : ph < 8) (hpw : pw < 8)
    (h : S16x3x8x8.Slices ![0, 0, ph, pw] S16x3x1x1) (hc : S16x3x1x1.ShapeCasts S16x3) (k : Fin 16) (c : Fin 3) :
    shapeCast S16x3 (extractStridedSlice S16x3x1x1 ![0, 0, ph, pw] Wt h) hc (ix2 k c) = Wt (ix4 k c ⟨ph, hph⟩ ⟨pw, hpw⟩) := by
  refine (shapeCast_apply _ hc (ix2 k c) (ix4 k c (0 : Fin 1) (0 : Fin 1)) (by
    rw [Shape.rowMajor_val_two, Shape.rowMajor_val_four]
    show ((k.val * 3 + c.val) * 1 + 0) * 1 + 0 = k.val * 3 + c.val
    omega)).trans ?_
  exact extractStridedSlice_apply _ Wt h _ _ fun a => match a with
    | ⟨0, _⟩ => by show k.val = 0 + k.val; omega
    | ⟨1, _⟩ => by show c.val = 0 + c.val; omega
    | ⟨2, _⟩ => by show ph = ph + 0; omega
    | ⟨3, _⟩ => by show pw = pw + 0; omega

/-- The image slice at offset (ph, pw), flattened to [3, 4096], at (c, p) is X[c, p / 64, ph, p % 64, pw]. -/
theorem image_slice_apply (X : FVec Ideal S3x64x8x64x8 .f32) (ph pw : ℕ) (hph : ph < 8) (hpw : pw < 8)
    (h : S3x64x8x64x8.Slices ![0, 0, ph, 0, pw] S3x64x1x64x1) (hc1 : S3x64x1x64x1.ShapeCasts S3x64x64)
    (hc2 : S3x64x64.ShapeCasts S3x4096) (c : Fin 3) (p : Fin 4096) :
    shapeCast S3x4096 (shapeCast S3x64x64 (extractStridedSlice S3x64x1x64x1 ![0, 0, ph, 0, pw] X h) hc1) hc2 (ix2 c p)
      = X (ix5 c ⟨p.val / 64, by have := p.isLt; omega⟩ ⟨ph, hph⟩ ⟨p.val % 64, Nat.mod_lt _ (by decide)⟩ ⟨pw, hpw⟩) := by
  have hp := p.isLt
  refine (shapeCast_apply _ hc2 (ix2 c p) (ix3 c (⟨p.val / 64, by omega⟩ : Fin 64) (⟨p.val % 64, Nat.mod_lt _ (by decide)⟩ : Fin 64)) (by
    rw [Shape.rowMajor_val_two, Shape.rowMajor_val_three]
    show (c.val * 64 + p.val / 64) * 64 + p.val % 64 = c.val * 4096 + p.val
    omega)).trans ?_
  refine (shapeCast_apply _ hc1 _ (ix5 c (⟨p.val / 64, by omega⟩ : Fin 64) (0 : Fin 1) (⟨p.val % 64, Nat.mod_lt _ (by decide)⟩ : Fin 64) (0 : Fin 1)) (by
    rw [Shape.rowMajor_val_three, Shape.rowMajor_val_five]
    show (((c.val * 64 + p.val / 64) * 1 + 0) * 64 + p.val % 64) * 1 + 0 = (c.val * 64 + p.val / 64) * 64 + p.val % 64
    omega)).trans ?_
  exact extractStridedSlice_apply _ X h _ _ fun a => match a with
    | ⟨0, _⟩ => by show c.val = 0 + c.val; omega
    | ⟨1, _⟩ => by show p.val / 64 = 0 + p.val / 64; omega
    | ⟨2, _⟩ => by show ph = ph + 0; omega
    | ⟨3, _⟩ => by show p.val % 64 = 0 + p.val % 64; omega
    | ⟨4, _⟩ => by show pw = pw + 0; omega

/-! ## One term of the accumulation -/

/-- The contribution of offset (ph, pw) to output (k, p): the sum over the channels of weight times pixel. Total in the
    offsets (zero outside the patch), so that the sixty-four steps can be counted by a natural number. -/
def tm (X : FVec Ideal S3x64x8x64x8 .f32) (Wt : FVec Ideal S16x3x8x8 .f32) (k : Fin 16) (p : Fin 4096) (ph pw : ℕ) : EReal :=
  if h : ph < 8 ∧ pw < 8 then
    ∑ c : Fin 3, Wt (ix4 k c ⟨ph, h.1⟩ ⟨pw, h.2⟩)
      * X (ix5 c ⟨p.val / 64, by have := p.isLt; omega⟩ ⟨ph, h.1⟩ ⟨p.val % 64, Nat.mod_lt _ (by decide)⟩ ⟨pw, h.2⟩)
  else 0

/-- The kernel's step for offset (ph, pw) — slice, flatten, multiply into zero — at (k, p) is that term. -/
theorem step_apply (X : FVec Ideal S3x64x8x64x8 .f32) (Wt : FVec Ideal S16x3x8x8 .f32) (ph pw : ℕ)
    (h2 : S3x64x8x64x8.Slices ![0, 0, ph, 0, pw] S3x64x1x64x1) (h4 : S16x3x8x8.Slices ![0, 0, ph, pw] S16x3x1x1)
    (hc : S16x3x1x1.ShapeCasts S16x3) (hc1 : S3x64x1x64x1.ShapeCasts S3x64x64) (hc2 : S3x64x64.ShapeCasts S3x4096)
    (k : Fin 16) (p : Fin 4096) :
    matmul dot_S16x3_S3x4096_S16x4096_1_0_0_1_n_n none (shapeCast S16x3 (extractStridedSlice S16x3x1x1 ![0, 0, ph, pw] Wt h4) hc)
        (shapeCast S3x4096 (shapeCast S3x64x64 (extractStridedSlice S3x64x1x64x1 ![0, 0, ph, 0, pw] X h2) hc1) hc2)
        (constant S16x4096 .f32 0x00000000#32) (ix2 k p)
      = tm X Wt k p ph pw := by
  obtain ⟨hph, hpw⟩ := weight_offsets_lt h4
  rw [channel_product_apply, tm, dif_pos ⟨hph, hpw⟩]
  refine Finset.sum_congr rfl fun c _ => ?_
  rw [weight_slice_apply Wt ph pw hph hpw h4 hc k c, image_slice_apply X ph pw hph hpw h2 hc1 hc2 c p]

end Cert.KernelIdeal.PatchTerm

end
-- ==== Proof.Accumulate.lean ====
/-
  The kernel's accumulator after all sixty-four steps, read at an index.

  The body adds the steps' products one after another into a zero block, (ph, pw) running through the 8 × 8 offsets row
  by row: step i has offset (i / 8, i % 8). Each stretch of the body adds the terms of a run of consecutive steps to
  what the stretch before left; put end to end the runs are the steps 0 … 63. The last stretch transposes the
  accumulator to [4096, 16] and adds the bias row.
-/
import proofs.«150936_j29076928594212_1_alg».proof.Proof.PatchTerm

noncomputable section

namespace Cert.KernelIdeal.Accumulate

open Cert.KernelIdeal Cert.KernelIdeal.Gen Cert.KernelIdeal.PatchTerm Idealize.ShloMosaic Idealize.ShloMosaic.ValueIdx

/-- The terms of the steps a ≤ i < b, added up. -/
def steps (X : FVec Ideal S3x64x8x64x8 .f32) (Wt : FVec Ideal S16x3x8x8 .f32) (k : Fin 16) (p : Fin 4096) (a b : ℕ) : EReal :=
  ∑ i ∈ Finset.Ico a b, tm X Wt k p (i / 8) (i % 8)

/-- The zero block the accumulation starts from. -/
theorem zero_block_apply (i : S16x4096.Idx) : broadcast S16x4096 (Scalar.ofBits (F := Ideal) .f32 0x00000000#32) i = 0 :=
  Ideal.ofBits_zero_f32

/-- Consecutive runs of steps put end to end. -/
theorem steps_append (X : FVec Ideal S3x64x8x64x8 .f32) (Wt : FVec Ideal S16x3x8x8 .f32) (k : Fin 16) (p : Fin 4096) (a b c : ℕ) (hab : a ≤ b) (hbc : b ≤ c) :
    steps X Wt k p a b + steps X Wt k p b c = steps X Wt k p a c :=
  Finset.sum_Ico_consecutive _ hab hbc

/-! ## The stretches of the body, each adding a run of steps -/

/-- The first stretch starts from the zero block and adds steps 0 … 4. -/
theorem stretch_0_5 (P0 : Vec Ideal S1x3x512x512 .f32) (P1 : Vec Ideal S16x192 .f32) (k : Fin 16) (p : Fin 4096) :
    k0_pay4 P0 P1 (ix2 k p) = steps (k0_pay2 P0) (k0_pay3 P1) k p 0 5 := by
  simp only [steps, k0_pay4, addf_apply, step_apply, zero_block_apply, Finset.sum_Ico_eq_sum_range, Finset.sum_range_succ,
    Finset.sum_range_zero, zero_add, add_assoc]

theorem stretch_5_13 (P0 : Vec Ideal S1x3x512x512 .f32) (P1 : Vec Ideal S16x192 .f32) (acc : FVec Ideal S16x4096 .f32)
    (k : Fin 16) (p : Fin 4096) :
    k0_pay7 (k0_pay2 P0) (k0_pay3 P1) acc (k0_pay5 P0) (k0_pay6 P1) (ix2 k p) = acc (ix2 k p) + steps (k0_pay2 P0) (k0_pay3 P1) k p 5 13 := by
  simp only [steps, k0_pay7, k0_pay5, k0_pay6, addf_apply, step_apply, zero_block_apply, Finset.sum_Ico_eq_sum_range, Finset.sum_range_succ,
    Finset.sum_range_zero, zero_add, add_assoc]

theorem stretch_13_20 (X : FVec Ideal S3x64x8x64x8 .f32) (Wt : FVec Ideal S16x3x8x8 .f32) (acc : FVec Ideal S16x4096 .f32)
    (k : Fin 16) (p : Fin 4096) :
    k0_pay8 X Wt acc (ix2 k p) = acc (ix2 k p) + steps X Wt k p 13 20 := by
  simp only [steps, k0_pay8, addf_apply, step_apply, zero_block_apply, Finset.sum_Ico_eq_sum_range, Finset.sum_range_succ,
    Finset.sum_range_zero, zero_add, add_assoc]

theorem stretch_20_28 (X : FVec Ideal S3x64x8x64x8 .f32) (Wt : FVec Ideal S16x3x8x8 .f32) (acc : FVec Ideal S16x4096 .f32)
    (k : Fin 16) (p : Fin 4096) :
    k0_pay11 X Wt acc (k0_pay9 X) (k0_pay10 Wt) (ix2 k p) = acc (ix2 k p) + steps X Wt k p 20 28 := by
  simp only [steps, k0_pay11, k0_pay9, k0_pay10, addf_apply, step_apply, zero_block_apply, Finset.sum_Ico_eq_sum_range, Finset.sum_range_succ,
    Finset.sum_range_zero, zero_add, add_assoc]

theorem stretch_28_35 (X : FVec Ideal S3x64x8x64x8 .f32) (Wt : FVec Ideal S16x3x8x8 .f32) (acc : FVec Ideal S16x4096 .f32)
    (k : Fin 16) (p : Fin 4096) :
    k0_pay12 X Wt acc (ix2 k p) = acc (ix2 k p) + steps X Wt k p 28 35 := by
  simp only [steps, k0_pay12, addf_apply, step_apply, zero_block_apply, Finset.sum_Ico_eq_sum_range, Finset.sum_range_succ,
    Finset.sum_range_zero, zero_add, add_assoc]

theorem stretch_35_43 (X : FVec Ideal S3x64x8x64x8 .f32) (Wt : FVec Ideal S16x3x8x8 .f32) (acc : FVec Ideal S16x4096 .f32)
    (k : Fin 16) (p : Fin 4096) :
    k0_pay15 X Wt acc (k0_pay13 X) (k0_pay14 Wt) (ix2 k p) = acc (ix2 k p) + steps X Wt k p 35 43 := by
  simp only [steps, k0_pay15, k0_pay13, k0_pay14, addf_apply, step_apply, zero_block_apply, Finset.sum_Ico_eq_sum_range, Finset.sum_range_succ,
    Finset.sum_range_zero, zero_add, add_assoc]

theorem stretch_43_50 (X : FVec Ideal S3x64x8x64x8 .f32) (Wt : FVec Ideal S16x3x8x8 .f32) (acc : FVec Ideal S16x4096 .f32)
    (k : Fin 16) (p : Fin 4096) :
    k0_pay16 X Wt acc (ix2 k p) = acc (ix2 k p) + steps X Wt k p 43 50 := by
  simp only [steps, k0_pay16, addf_apply, step_apply, zero_block_apply, Finset.sum_Ico_eq_sum_range, Finset.sum_range_succ,
    Finset.sum_range_zero, zero_add, add_assoc]

theorem stretch_50_58 (X : FVec Ideal S3x64x8x64x8 .f32) (Wt : FVec Ideal S16x3x8x8 .f32) (acc : FVec Ideal S16x4096 .f32)
    (k : Fin 16) (p : Fin 4096) :
    k0_pay19 X Wt acc (k0_pay17 X) (k0_pay18 Wt) (ix2 k p) = acc (ix2 k p) + steps X Wt k p 50 58 := by
  simp only [steps, k0_pay19, k0_pay17, k0_pay18, addf_apply, step_apply, zero_block_apply, Finset.sum_Ico_eq_sum_range, Finset.sum_range_succ,
    Finset.sum_range_zero, zero_add, add_assoc]

/-- The transposed accumulator at (p, k) is the accumulator at (k, p). -/
theorem transposed_apply (v : FVec Ideal S16x4096 .f32) (k : Fin 16) (p : Fin 4096) :
    transpose S4096x16 [1, 0] v transposes_S16x4096_p1_0_S4096x16 (ix2 p k) = v (ix2 k p) :=
  transpose_apply _ v _ _ _ fun c => match c with | ⟨0, _⟩ => rfl | ⟨1, _⟩ => rfl

/-- The last stretch adds steps 58 … 63, transposes the accumulator and adds the bias row. -/
theorem stretch_58_64 (X : FVec Ideal S3x64x8x64x8 .f32) (Wt : FVec Ideal S16x3x8x8 .f32) (v5 : Vec Ideal S16 .f32) (acc : FVec Ideal S16x4096 .f32)
    (k : Fin 16) (p : Fin 4096) :
    k0_pay20 X Wt v5 acc (ix2 p k) = (acc (ix2 k p) + steps X Wt k p 58 64) + v5 (ix1 k) := by
  simp only [k0_pay20, addf_apply]
  rw [transposed_apply]
  simp only [steps, addf_apply, broadcastTo_1b_ab_apply, shapeCast_a_1a_apply, step_apply,
    Finset.sum_Ico_eq_sum_range, Finset.sum_range_succ, Finset.sum_range_zero, zero_add, add_assoc]

/-! ## All of it -/

/-- The block the body stores, before the leading unit axis is put back: at (p, k) all sixty-four steps' terms and the
    bias. -/
theorem body_apply (P0 : Vec Ideal S1x3x512x512 .f32) (P1 : Vec Ideal S16x192 .f32) (P2 : Vec Ideal S16 .f32) (k : Fin 16) (p : Fin 4096) :
    k0_pay20 (k0_pay2 P0) (k0_pay3 P1) P2 (k0_pay19 (k0_pay2 P0) (k0_pay3 P1) (k0_pay16 (k0_pay2 P0) (k0_pay3 P1) (k0_pay15 (k0_pay2 P0) (k0_pay3 P1) (k0_pay12 (k0_pay2 P0) (k0_pay3 P1) (k0_pay11 (k0_pay2 P0) (k0_pay3 P1) (k0_pay8 (k0_pay2 P0) (k0_pay3 P1) (k0_pay7 (k0_pay2 P0) (k0_pay3 P1) (k0_pay4 P0 P1) (k0_pay5 P0) (k0_pay6 P1))) (k0_pay9 (k0_pay2 P0)) (k0_pay10 (k0_pay3 P1)))) (k0_pay13 (k0_pay2 P0)) (k0_pay14 (k0_pay3 P1)))) (k0_pay17 (k0_pay2 P0)) (k0_pay18 (k0_pay3 P1))) (ix2 p k)
      = steps (k0_pay2 P0) (k0_pay3 P1) k p 0 64 + P2 (ix1 k) := by
  rw [stretch_58_64, stretch_50_58, stretch_43_50, stretch_35_43, stretch_28_35, stretch_20_28, stretch_13_20, stretch_5_13,
    stretch_0_5]
  rw [steps_append _ _ k p 0 5 13 (by decide) (by decide), steps_append _ _ k p 0 13 20 (by decide) (by decide),
    steps_append _ _ k p 0 20 28 (by decide) (by decide), steps_append _ _ k p 0 28 35 (by decide) (by decide),
    steps_append _ _ k p 0 35 43 (by decide) (by decide), steps_append _ _ k p 0 43 50 (by decide) (by decide),
    steps_append _ _ k p 0 50 58 (by decide) (by decide), steps_append _ _ k p 0 58 64 (by decide) (by decide)]

end Cert.KernelIdeal.Accumulate

end
-- ==== Proof.BlockValue.lean ====
/-
  What the body stores for one image, as a function of the three blocks it loads.

  The stored block at (p, k) holds the sixty-four steps' terms and the bias. A step's term is a sum over the three
  channels, so all steps together are a sum over channel and offset; with the image block's two reshapes and the
  weights' reshape read at an index, the summand for channel c and offset (ph, pw) is the pixel under feature
  d = c · 64 + ph · 8 + pw times the weight of that feature, and channel-and-offset run through the 192 features once.
  Products commute and sums over finite index sets can be re-indexed in the extended reals, so no finiteness is used.
-/
import proofs.«150936_j29076928594212_1_alg».proof.Proof.Accumulate
import proofs.«150936_j29076928594212_1_alg».proof.Proof.PatchAlgebra

noncomputable section

namespace Cert.KernelIdeal.BlockValue

open Cert.KernelIdeal Cert.KernelIdeal.Gen Cert.KernelIdeal.PatchTerm Cert.KernelIdeal.Accumulate Cert.PatchEmbed
open Idealize.ShloMosaic Idealize.ShloMosaic.ValueIdx

/-- The pixel of patch `p` under feature `d`, inside the one image the body has loaded. -/
def blockPixel (p : Fin 4096) (d : Fin 192) : S1x3x512x512.Idx :=
  ix4 (0 : Fin 1) (⟨d.val / 64, by have := d.isLt; omega⟩ : Fin 3)
    (⟨p.val / 64 * 8 + d.val / 8 % 8, by have := p.isLt; omega⟩ : Fin 512)
    (⟨p.val % 64 * 8 + d.val % 8, by omega⟩ : Fin 512)

/-- The image block split into patches, at channel c, patch (a, b) and offset (ph, pw), is the pixel under the feature
    of c and (ph, pw). -/
theorem image_apply (P0 : Vec Ideal S1x3x512x512 .f32) (c : Fin 3) (ph pw : Fin 8) (p : Fin 4096) (a b : Fin 64)
    (ha : a.val = p.val / 64) (hb : b.val = p.val % 64) :
    k0_pay2 P0 (ix5 c a ph b pw) = P0 (blockPixel p (feat c ph pw)) := by
  have hc := c.isLt; have hph := ph.isLt; have hpw := pw.isLt; have hp := p.isLt
  simp only [k0_pay2]
  refine (shapeCast_apply _ shapeCasts_S3x512x512_S3x64x8x64x8 _
    (ix3 (⟨(c.val * 64 + ph.val * 8 + pw.val) / 64, by omega⟩ : Fin 3)
      (⟨p.val / 64 * 8 + (c.val * 64 + ph.val * 8 + pw.val) / 8 % 8, by omega⟩ : Fin 512)
      (⟨p.val % 64 * 8 + (c.val * 64 + ph.val * 8 + pw.val) % 8, by omega⟩ : Fin 512)) (by
    rw [Shape.rowMajor_val_three, Shape.rowMajor_val_five]
    show ((c.val * 64 + ph.val * 8 + pw.val) / 64 * 512 + (p.val / 64 * 8 + (c.val * 64 + ph.val * 8 + pw.val) / 8 % 8)) * 512
        + (p.val % 64 * 8 + (c.val * 64 + ph.val * 8 + pw.val) % 8)
      = (((c.val * 64 + a.val) * 8 + ph.val) * 64 + b.val) * 8 + pw.val
    omega)).trans ?_
  exact shapeCast_apply _ shapeCasts_S1x3x512x512_S3x512x512 _ (blockPixel p (feat c ph pw)) (by
    rw [Shape.rowMajor_val_four, Shape.rowMajor_val_three]
    show ((0 * 3 + (c.val * 64 + ph.val * 8 + pw.val) / 64) * 512 + (p.val / 64 * 8 + (c.val * 64 + ph.val * 8 + pw.val) / 8 % 8)) * 512
        + (p.val % 64 * 8 + (c.val * 64 + ph.val * 8 + pw.val) % 8)
      = ((c.val * 64 + ph.val * 8 + pw.val) / 64 * 512 + (p.val / 64 * 8 + (c.val * 64 + ph.val * 8 + pw.val) / 8 % 8)) * 512
        + (p.val % 64 * 8 + (c.val * 64 + ph.val * 8 + pw.val) % 8)
    omega)

/-- The weights split by channel and offset, at (k, c, ph, pw), are the weight of output k and the feature of c and
    (ph, pw). -/
theorem weights_apply (P1 : Vec Ideal S16x192 .f32) (k : Fin 16) (c : Fin 3) (ph pw : Fin 8) :
    k0_pay3 P1 (ix4 k c ph pw) = P1 (ix2 k (feat c ph pw)) := by
  have hc := c.isLt; have hph := ph.isLt; have hpw := pw.isLt
  simp only [k0_pay3]
  exact shapeCast_apply _ shapeCasts_S16x192_S16x3x8x8 _ (ix2 k (feat c ph pw)) (by
    rw [Shape.rowMajor_val_two, Shape.rowMajor_val_four]
    show k.val * 192 + (c.val * 64 + ph.val * 8 + pw.val) = ((k.val * 3 + c.val) * 8 + ph.val) * 8 + pw.val
    omega)

/-- The block the body stores, at (u, p, k): the patch embedding of the loaded image's patch p into channel k. -/
theorem block_apply (P0 : Vec Ideal S1x3x512x512 .f32) (P1 : Vec Ideal S16x192 .f32) (P2 : Vec Ideal S16 .f32)
    (u : Fin 1) (p : Fin 4096) (k : Fin 16) :
    k0_pay1 (k0_pay20 (k0_pay2 P0) (k0_pay3 P1) P2 (k0_pay19 (k0_pay2 P0) (k0_pay3 P1) (k0_pay16 (k0_pay2 P0) (k0_pay3 P1) (k0_pay15 (k0_pay2 P0) (k0_pay3 P1) (k0_pay12 (k0_pay2 P0) (k0_pay3 P1) (k0_pay11 (k0_pay2 P0) (k0_pay3 P1) (k0_pay8 (k0_pay2 P0) (k0_pay3 P1) (k0_pay7 (k0_pay2 P0) (k0_pay3 P1) (k0_pay4 P0 P1) (k0_pay5 P0) (k0_pay6 P1))) (k0_pay9 (k0_pay2 P0)) (k0_pay10 (k0_pay3 P1)))) (k0_pay13 (k0_pay2 P0)) (k0_pay14 (k0_pay3 P1)))) (k0_pay17 (k0_pay2 P0)) (k0_pay18 (k0_pay3 P1)))) (ix3 u p k)
      = (∑ d : Fin 192, P0 (blockPixel p d) * P1 (ix2 k d)) + P2 (ix1 k) := by
  simp only [k0_pay1]
  rw [shapeCast_ab_1ab_apply, body_apply]
  congr 1
  rw [sum_features]
  unfold steps
  rw [← Finset.range_eq_Ico, sum_steps (tm (k0_pay2 P0) (k0_pay3 P1) k p)]
  refine Finset.sum_congr rfl fun ph _ => Finset.sum_congr rfl fun pw _ => ?_
  rw [tm, dif_pos ⟨ph.isLt, pw.isLt⟩]
  refine Finset.sum_congr rfl fun c _ => ?_
  rw [mul_comm]
  congr 1
  · exact image_apply P0 c ph pw p _ _ rfl rfl
  · exact weights_apply P1 k c ph pw

end Cert.KernelIdeal.BlockValue

end
-- ==== Proof.KernelValue.lean ====
/-
  The kernel's result array is the patch embedding of its three argument arrays.

  The grid has one point per image. Point t loads image t (block t of the images along the leading axis) and the whole
  weights and bias, and writes block t of the result: rows (t, ·, ·). What it writes is the patch embedding of the
  loaded image, and the loaded image's pixels are image t's, so the written block is block t of the patch embedding of the
  whole arrays. The sixty-four blocks cover the result array (index (n, p, k) lies in block n), so the array ends holding
  the patch embedding everywhere.
-/
import proofs.«150936_j29076928594212_1_alg».proof.Proof.Gen.KernelIdeal.Value
import proofs.«150936_j29076928594212_1_alg».proof.Proof.BlockValue

noncomputable section

namespace Cert.KernelIdeal.KernelValue

open Cert.KernelIdeal Cert.KernelIdeal.Gen Cert.KernelIdeal.BlockValue Cert.PatchEmbed
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The index maps over the grid: images and result move with the point along the leading axis, everything else stays
    at block 0. -/
theorem index_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 2) = 0 ∧ win0_1.index t (1 : Fin 2) = 0
    ∧ win0_2.index t (0 : Fin 1) = 0
    ∧ win0_3.index t (0 : Fin 3) = t.val ∧ win0_3.index t (1 : Fin 3) = 0 ∧ win0_3.index t (2 : Fin 3) = 0 :=
  (by decide +kernel : ∀ t : Fin grid0.N, _)

/-- The three argument arrays as the region finds them, at their literal types. -/
abbrev images (c : Dev nD) : Vec Ideal S64x3x512x512 .f32 := V m c main_arg0
abbrev weights (c : Dev nD) : Vec Ideal S16x192 .f32 := V m c main_arg1
abbrev bias (c : Dev nD) : Vec Ideal S16 .f32 := V m c main_arg2

/-- The three blocks point `t` loads, at their literal types. -/
abbrev imageBlock (c : Dev nD) (t : Fin cfg0.N) : Vec Ideal S1x3x512x512 .f32 := iblk m c 0 t
abbrev weightBlock (c : Dev nD) (t : Fin cfg0.N) : Vec Ideal S16x192 .f32 := iblk m c 1 t
abbrev biasBlock (c : Dev nD) (t : Fin cfg0.N) : Vec Ideal S16 .f32 := iblk m c 2 t

/-- The loaded image's pixel of patch p under feature d is image t's. -/
theorem image_read (c : Dev nD) (t : Fin cfg0.N) (n : Fin 64) (hn : n.val = t.val) (p : Fin 4096) (d : Fin 192) :
    imageBlock m c t (blockPixel p d) = images m c (pixel n p d) := by
  obtain ⟨e0, e1, e2, e3, -⟩ := index_facts t
  show V m c main_arg0 (((cfg0.win 0).blk t).view.emb (blockPixel p d)) = V m c main_arg0 (pixel n p d)
  refine congrArg (V m c main_arg0) (funext fun a => Fin.ext ?_)
  match a with
  | ⟨0, _⟩ => show win0_0.index t (0 : Fin 4) * 1 + 1 * 0 = n.val; omega
  | ⟨1, _⟩ => show win0_0.index t (1 : Fin 4) * 3 + 1 * (d.val / 64) = d.val / 64; omega
  | ⟨2, _⟩ => show win0_0.index t (2 : Fin 4) * 512 + 1 * (p.val / 64 * 8 + d.val / 8 % 8) = p.val / 64 * 8 + d.val / 8 % 8; omega
  | ⟨3, _⟩ => show win0_0.index t (3 : Fin 4) * 512 + 1 * (p.val % 64 * 8 + d.val % 8) = p.val % 64 * 8 + d.val % 8; omega

/-- The loaded weights are the weights. -/
theorem weight_read (c : Dev nD) (t : Fin cfg0.N) (k : Fin 16) (d : Fin 192) :
    weightBlock m c t (ix2 k d) = weights m c (ix2 k d) := by
  obtain ⟨-, -, -, -, e4, e5, -⟩ := index_facts t
  show V m c main_arg1 (((cfg0.win 1).blk t).view.emb (ix2 k d)) = V m c main_arg1 (ix2 k d)
  refine congrArg (V m c main_arg1) (funext fun a => Fin.ext ?_)
  match a with
  | ⟨0, _⟩ => show win0_1.index t (0 : Fin 2) * 16 + 1 * k.val = k.val; omega
  | ⟨1, _⟩ => show win0_1.index t (1 : Fin 2) * 192 + 1 * d.val = d.val; omega

/-- The loaded bias is the bias. -/
theorem bias_read (c : Dev nD) (t : Fin cfg0.N) (k : Fin 16) :
    biasBlock m c t (ix1 k) = bias m c (ix1 k) := by
  obtain ⟨-, -, -, -, -, -, e6, -⟩ := index_facts t
  show V m c main_arg2 (((cfg0.win 2).blk t).view.emb (ix1 k)) = V m c main_arg2 (ix1 k)
  refine congrArg (V m c main_arg2) (funext fun a => Fin.ext ?_)
  match a with
  | ⟨0, _⟩ => show win0_2.index t (0 : Fin 1) * 16 + 1 * k.val = k.val; omega

/-- What point `t` writes back is block `t` of the patch embedding of the argument arrays. -/
theorem flushed_eq (c : Dev nD) (t : Fin cfg0.N) :
    (dats m 0 c).flushed 3 t
      = ((cfg0.win 3).blk t).view.read (Elt Ideal) (patchEmbed (V m c main_arg0) (V m c main_arg1) (V m c main_arg2)) := by
  rw [Value.flushed3]
  unfold out0_3
  rw [View.canon_unit_zero zeros3]
  simp only [View.ld_unit_zero (S := S1x3x512x512) zeros4, View.ld_unit_zero (S := S16x192) zeros2, View.ld_unit_zero (S := S16) zeros1]
  obtain ⟨-, -, -, -, -, -, -, e7, e8, e9⟩ := index_facts t
  have ht : t.val < 64 := t.isLt
  funext j
  obtain ⟨u, p, k, rfl⟩ : ∃ (u : Fin 1) (p : Fin 4096) (k : Fin 16), j = ix3 u p k := ⟨j 0, j 1, j 2, eq_ix3 j⟩
  have hu : u.val = 0 := by have := u.isLt; omega
  refine (block_apply (imageBlock m c t) (weightBlock m c t) (biasBlock m c t) u p k).trans ?_
  have hemb : ((cfg0.win 3).blk t).view.emb (ix3 u p k) = ix3 (⟨t.val, ht⟩ : Fin 64) p k := funext fun a => Fin.ext (by
    match a with
    | ⟨0, _⟩ => show win0_3.index t (0 : Fin 3) * 1 + 1 * u.val = t.val; omega
    | ⟨1, _⟩ => show win0_3.index t (1 : Fin 3) * 4096 + 1 * p.val = p.val; omega
    | ⟨2, _⟩ => show win0_3.index t (2 : Fin 3) * 16 + 1 * k.val = k.val; omega)
  show _ = patchEmbed (V m c main_arg0) (V m c main_arg1) (V m c main_arg2) (((cfg0.win 3).blk t).view.emb (ix3 u p k))
  rw [hemb]
  show _ = (∑ d : Fin 192, images m c (pixel (⟨t.val, ht⟩ : Fin 64) p d) * weights m c (ix2 k d)) + bias m c (ix1 k)
  congr 1
  · refine Finset.sum_congr rfl fun d _ => ?_
    rw [image_read m c t ⟨t.val, ht⟩ rfl p d, weight_read m c t k d]
  · exact bias_read m c t k

/-- An index of the result array is in point `t`'s block iff each coordinate is in the block's range on its axis. -/
theorem mem_block (t : Fin cfg0.N) (i : S64x4096x16.Idx) :
    i ∈ ((cfg0.win 3).blk t).view.set ↔ ∀ a : Fin 3, win0_3.index t a * S1x4096x16.size a ≤ (i a).val
      ∧ (i a).val < win0_3.index t a * S1x4096x16.size a + S1x4096x16.size a := by
  show i ∈ ((View.whole main_v0).slice (win0_3.rect t)).set ↔ _
  rw [View.set_slice_whole, Rect.mem_set_unit]
  exact Iff.rfl

/-- Every index (n, p, k) of the result lies in the block of point n. -/
theorem covered (i : S64x4096x16.Idx) : ∃ t : Fin cfg0.N, (cfg0.win 3).flush t = true ∧ i ∈ ((cfg0.win 3).blk t).view.set := by
  have h0 : (i 0).val < 64 := (i 0).isLt
  have h1 : (i 1).val < 4096 := (i 1).isLt
  have h2 : (i 2).val < 16 := (i 2).isLt
  refine ⟨⟨(i 0).val, h0⟩, flush0_3 _, ?_⟩
  obtain ⟨-, -, -, -, -, -, -, e7, e8, e9⟩ := index_facts ⟨(i 0).val, h0⟩
  rw [mem_block]
  intro a
  match a with
  | ⟨0, _⟩ => show win0_3.index ⟨(i 0).val, h0⟩ (0 : Fin 3) * 1 ≤ (i 0).val ∧ (i 0).val < win0_3.index ⟨(i 0).val, h0⟩ (0 : Fin 3) * 1 + 1; rw [e7]; show (i 0).val * 1 ≤ (i 0).val ∧ (i 0).val < (i 0).val * 1 + 1; omega
  | ⟨1, _⟩ => show win0_3.index ⟨(i 0).val, h0⟩ (1 : Fin 3) * 4096 ≤ (i 1).val ∧ (i 1).val < win0_3.index ⟨(i 0).val, h0⟩ (1 : Fin 3) * 4096 + 4096; omega
  | ⟨2, _⟩ => show win0_3.index ⟨(i 0).val, h0⟩ (2 : Fin 3) * 16 ≤ (i 2).val ∧ (i 2).val < win0_3.index ⟨(i 0).val, h0⟩ (2 : Fin 3) * 16 + 16; omega

/-- The result array after the run is the patch embedding of the arguments as launched. -/
theorem final (c : Dev nD) :
    (dats m 0 c).arrAt 3 cfg0.N = patchEmbed (m ((c : Thread nD τ).loc main_arg0)) (m ((c : Thread nD τ).loc main_arg1)) (m ((c : Thread nD τ).loc main_arg2)) :=
  (dats m 0 c).arrAt_eq_of_cover 3 (patchEmbed (V m c main_arg0) (V m c main_arg1) (V m c main_arg2)) (fun t _ => flushed_eq m c t) covered

/-- The kernel's run: the result array at the patch embedding of the arguments, the arguments unchanged. -/
theorem run : θ_run defs (onTc (τ := τ) (main (F := Ideal))) ⟨m, fun _ => 0, ρ⟩ fun r => ∀ c : Dev nD,
      r.2.mem ((c : Thread nD τ).loc main_v0) = patchEmbed (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelValue

end
-- ==== Proof.lean ====
/-
  A patch embedding against its plain form, over the extended reals.

  Both programs take images [64, 3, 512, 512], weights [16, 192] and a bias [16] and return [64, 4096, 16]: each image is
  cut into 64 × 64 patches of 8 × 8 pixels, a patch's 3 · 8 · 8 = 192 values (channel, row in the patch, column in the
  patch) are multiplied into 16 output channels and the bias is added.

  The reference reshapes and transposes the images into a [64, 4096, 192] array of flattened patches and contracts it
  with the weights in one product. The kernel runs one grid point per image; for each of the 64 offsets (ph, pw) inside
  a patch it takes the pixels at that offset of every patch and channel, [3, 4096], and the weights of that offset,
  [16, 3], multiplies them into a zero block and adds the product to an accumulator that starts at zero; then it
  transposes the accumulator and adds the bias.

  At the ideal instance both are, at (n, p, k), the sum over the 192 features d of pixel(n, p, d) · w[k, d], plus b[k]:
  the kernel's sixty-four three-term sums are the one sum over the features, re-indexed by d = c · 64 + ph · 8 + pw, and
  its factors are in the other order. Addition and multiplication on the extended reals are commutative and associative
  and zero is neutral for addition, which is all the re-indexing uses: the precondition is never opened.

  The frames of the two kernel programs and the kernel's and the reference's runs are the generated ones; written by hand
  are the reading of the body's sixty-four steps at an index (Proof/PatchTerm.lean, Proof/Accumulate.lean), the sums'
  re-indexing and the patch embedding as one function (Proof/PatchAlgebra.lean, Proof/BlockValue.lean), the reference's
  reshapes read at an index (Proof/RefValue.lean) and the step from blocks to the whole result array
  (Proof/KernelValue.lean). No rewrite was applied when the kernel was idealized, so that claim is trivial.
-/
import proofs.«150936_j29076928594212_1_alg».proof.Defs
import proofs.«150936_j29076928594212_1_alg».proof.Proof.Gen.Kernel
import proofs.«150936_j29076928594212_1_alg».proof.Proof.Gen.Kernel.Skeleton
import proofs.«150936_j29076928594212_1_alg».proof.Proof.Gen.Kernel.Launch
import proofs.«150936_j29076928594212_1_alg».proof.Proof.Gen.Kernel.Points
import proofs.«150936_j29076928594212_1_alg».proof.Proof.Gen.Kernel.Frame
import proofs.«150936_j29076928594212_1_alg».proof.Proof.Gen.KernelIdeal
import proofs.«150936_j29076928594212_1_alg».proof.Proof.Gen.KernelIdeal.Skeleton
import proofs.«150936_j29076928594212_1_alg».proof.Proof.Gen.KernelIdeal.Launch
import proofs.«150936_j29076928594212_1_alg».proof.Proof.Gen.KernelIdeal.Points
import proofs.«150936_j29076928594212_1_alg».proof.Proof.Gen.KernelIdeal.Frame
import proofs.«150936_j29076928594212_1_alg».proof.Proof.Gen.ReferenceIdeal
import proofs.«150936_j29076928594212_1_alg».proof.Proof.Gen.KernelIdeal.Value
import proofs.«150936_j29076928594212_1_alg».proof.Proof.Gen.ReferenceIdeal.Run
import proofs.«150936_j29076928594212_1_alg».proof.Proof.Gen.ReferenceIdeal.Read
import proofs.«150936_j29076928594212_1_alg».proof.Proof.Gen.Pre_finite_inputs
import proofs.«150936_j29076928594212_1_alg».proof.Proof.RefValue
import proofs.«150936_j29076928594212_1_alg».proof.Proof.KernelValue
import Idealize.ShloMosaic.Adequacy
import Idealize.ShloMosaic.Init

noncomputable section

namespace Cert.Proof

open Idealize.ShloMosaic Idealize.SL.Sem Cert.PatchEmbed

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on images, weights and bias, both programs end with the patch embedding of them in their
    result array. -/
theorem algebraic : Cert.algebraic_KernelIdeal_ReferenceIdeal := by
  intro m ρ m' ρ' _ hagree
  refine ⟨fun c => patchEmbed (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.reference_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
